-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S16x128 : Shape := ⟨2, ![16, 128]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_

variable [Facts]

def fn {F : FTy → Type} [FloatOps F] (main_arg0 : FVec F S400000x128 .f32) (main_arg1 : FVec F S16x128 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  main_v8
-- ==== Kernel.lean ====
abbrev S400000x128 : Shape := ⟨2, ![400000, 128]⟩
abbrev S16x128 : Shape := ⟨2, ![16, 128]⟩
abbrev S10000x128 : Shape := ⟨2, ![10000, 128]⟩
abbrev S16x10000 : Shape := ⟨2, ![16, 10000]⟩
abbrev S10000 : Shape := ⟨1, ![10000]⟩
abbrev S1x10000 : Shape := ⟨2, ![1, 10000]⟩

abbrev nBuf : Space → Nat
  | .hbm => 4
  | .vmem => 5
  | .smem => 0
  | _ => 0

abbrev bufTy : (tb : Table) → Fin (tcTables nBuf tb) → BufTy
  | .hbm, ⟨0, _⟩ => ⟨S400000x128, .f32⟩
  | .hbm, ⟨1, _⟩ => ⟨S16x128, .f32⟩
  | .hbm, ⟨2, _⟩ => ⟨S16x128, .bf16⟩
  | .hbm, ⟨3, _⟩ => ⟨S400000x128, .f32⟩
  | .local _ .vmem, ⟨0, _⟩ => ⟨S10000x128, .f32⟩
  | .local _ .vmem, ⟨1, _⟩ => ⟨S10000x128, .f32⟩
  | .local _ .vmem, ⟨2, _⟩ => ⟨S16x128, .bf16⟩
  | .local _ .vmem, ⟨3, _⟩ => ⟨S10000x128, .f32⟩
  | .local _ .vmem, ⟨4, _⟩ => ⟨S10000x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  reduces_S16x10000_S10000 : S16x10000.Reduces [0] S10000
  shapeCasts_S10000_S1x10000 : S10000.ShapeCasts S1x10000
  broadcasts_S1x10000_S16x10000 : S1x10000.Broadcasts S16x10000
  dot_S16x128_S10000x128_S16x10000_1_1_0_0_n_n_wf : DotDims.WF S16x128 S10000x128 S16x10000 [1] [1] [0] [0] [] []
  dot_S16x10000_S16x128_S10000x128_0_0_1_1_n_n_wf : DotDims.WF S16x10000 S16x128 S10000x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S400000x128.size a
  hwx0_0 : ∀ i : grid0.Coords, EltTy.bits .f32 = 32 ∨ (Rect.block (s := S400000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .bf16 = 32 ∨ (Rect.block (s := S16x128) S16x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S400000x128.size a
  hwx0_2 : ∀ i : grid0.Coords, EltTy.bits .f32 = 32 ∨ (Rect.block (s := S400000x128) S10000x128.size (cc0_transform_2 i) (hinb0_2 i)).WholeWords (EltTy.packing .f32)

variable [Facts₀]

def dot_S16x128_S10000x128_S16x10000_1_1_0_0_n_n : DotDims S16x128 S10000x128 S16x10000 where
  lhsContracting := [1]
  rhsContracting := [1]
  lhsNonContracting := [0]
  rhsNonContracting := [0]
  lhsBatch := []
  rhsBatch := []
  wf := dot_S16x128_S10000x128_S16x10000_1_1_0_0_n_n_wf
def dot_S16x10000_S16x128_S10000x128_0_0_1_1_n_n : DotDims S16x10000 S16x128 S10000x128 where
  lhsContracting := [0]
  rhsContracting := [0]
  lhsNonContracting := [1]
  rhsNonContracting := [1]
  lhsBatch := []
  rhsBatch := []
  wf := dot_S16x10000_S16x128_S10000x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S400000x128 : Shape := ⟨2, ![400000, 128]⟩
abbrev S16x128 : Shape := ⟨2, ![16, 128]⟩
abbrev S128x16 : Shape := ⟨2, ![128, 16]⟩
abbrev S400000x16 : Shape := ⟨2, ![400000, 16]⟩
abbrev S_ : Shape := ⟨0, ![]⟩
abbrev S400000 : Shape := ⟨1, ![400000]⟩
abbrev S400000x1 : Shape := ⟨2, ![400000, 1]⟩

abbrev nBuf : Space → Nat
  | .hbm => 20
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S16x128, .f32⟩
  | .hbm, ⟨2, _⟩ => ⟨S128x16, .f32⟩
  | .hbm, ⟨3, _⟩ => ⟨S400000x16, .f32⟩
  | .hbm, ⟨4, _⟩ => ⟨S_, .f32⟩
  | .hbm, ⟨5, _⟩ => ⟨S400000, .f32⟩
  | .hbm, ⟨6, _⟩ => ⟨S_, .f32⟩
  | .hbm, ⟨7, _⟩ => ⟨S400000, .f32⟩
  | .hbm, ⟨8, _⟩ => ⟨S400000, .f32⟩
  | .hbm, ⟨9, _⟩ => ⟨S400000x1, .f32⟩
  | .hbm, ⟨10, _⟩ => ⟨S400000x16, .f32⟩
  | .hbm, ⟨11, _⟩ => ⟨S400000x16, .f32⟩
  | .hbm, ⟨12, _⟩ => ⟨S400000x16, .f32⟩
  | .hbm, ⟨13, _⟩ => ⟨S_, .f32⟩
  | .hbm, ⟨14, _⟩ => ⟨S400000, .f32⟩
  | .hbm, ⟨15, _⟩ => ⟨S400000x1, .f32⟩
  | .hbm, ⟨16, _⟩ => ⟨S400000x16, .f32⟩
  | .hbm, ⟨17, _⟩ => ⟨S400000x16, .f32⟩
  | .hbm, ⟨18, _⟩ => ⟨S400000x128, .f32⟩
  | .hbm, ⟨19, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S16x128_S128x16_1_0 : S16x128.Transposes [1, 0] S128x16
  reducesTo_S400000x16_S400000_d1 : S400000x16.ReducesTo [1] S400000
  h_S_ : 0 < S_.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x16_0_1 : S400000x1.BroadcastsInDim S400000x16 (![0, 1] : Fin 2 → Fin S400000x16.rank)
  dot_S400000x128_S128x16_S400000x16_1_0_0_1_n_n_wf : DotDims.WF S400000x128 S128x16 S400000x16 [1] [0] [0] [1] [] []
  dot_S400000x16_S16x128_S400000x128_1_0_0_1_n_n_wf : DotDims.WF S400000x16 S16x128 S400000x128 [1] [0] [0] [1] [] []

variable [Facts₀]

def dot_S400000x128_S128x16_S400000x16_1_0_0_1_n_n : DotDims S400000x128 S128x16 S400000x16 where
  lhsContracting := [1]
  rhsContracting := [0]
  lhsNonContracting := [0]
  rhsNonContracting := [1]
  lhsBatch := []
  rhsBatch := []
  wf := dot_S400000x128_S128x16_S400000x16_1_0_0_1_n_n_wf
def dot_S400000x16_S16x128_S400000x128_1_0_0_1_n_n : DotDims S400000x16 S16x128 S400000x128 where
  lhsContracting := [1]
  rhsContracting := [0]
  lhsNonContracting := [0]
  rhsNonContracting := [1]
  lhsBatch := []
  rhsBatch := []
  wf := dot_S400000x16_S16x128_S400000x128_1_0_0_1_n_n_wf

class Facts : Prop extends Facts₀ where

variable [Facts]
-- ==== Proof.PromptMix.lean ====
/-
  The mathematics both programs compute, row by row.

  A row `xr` of 128 numbers is scored against each of 16 token rows `te k` by the inner product
  `score k = ∑ d, xr d * te k d`; the scores are turned into weights by the shifted softmax
  `weight k = exp (score k - peak) / ∑ k', exp (score k' - peak)`, `peak` the largest score (the fold of `max`
  from the pattern of -∞); and the row is answered by itself plus the weighted mix of the token rows,
  `xr d + mix d`, `mix d = ∑ k, weight k * te k d`. Everything is over the extended reals, every operation the exact one.
  `mixed x te` is that, for each of the 400000 rows of `x`.
-/
import Idealize.ShloMosaic.PureOps.Ideal
import Idealize.ShloMosaic.PureOps.Ideal.Laws
import Idealize.ShloMosaic.Lib.ValueIdx

noncomputable section

namespace Cert.PromptMix

open Idealize.ShloMosaic Idealize.ShloMosaic.ValueIdx

/-- The inner product of a row with token row `k`. -/
def score (te : Fin 16 → Fin 128 → EReal) (xr : Fin 128 → EReal) (k : Fin 16) : EReal :=
  ∑ d : Fin 128, xr d * te k d

/-- The largest of sixteen scores: the fold of `max` from the pattern of -∞. -/
def peak (s : Fin 16 → EReal) : EReal :=
  (Finset.univ : Finset (Fin 16)).fold max (Ideal.ofBits .f32 0xFF800000#32) s

/-- The softmax weight of token `k`: the exponential of its score below the peak, over the sum of all sixteen. -/
def weight (s : Fin 16 → EReal) (k : Fin 16) : EReal :=
  Ideal.div (Ideal.exp (s k - peak s)) (∑ k' : Fin 16, Ideal.exp (s k' - peak s))

/-- The softmax-weighted mix of the token rows that answers a row, at column `d`. -/
def mix (te : Fin 16 → Fin 128 → EReal) (xr : Fin 128 → EReal) (d : Fin 128) : EReal :=
  ∑ k : Fin 16, weight (score te xr) k * te k d

/-- The whole result: each entry of `x` plus the mix its row draws, at its column. -/
def mixed (x : (⟨2, ![400000, 128]⟩ : Shape).Idx → EReal) (te : (⟨2, ![16, 128]⟩ : Shape).Idx → EReal) :
    (⟨2, ![400000, 128]⟩ : Shape).Idx → EReal :=
  fun i => x i + mix (fun k d => te (ix2 k d)) (fun d => x (ix2 (i 0) d)) (i 1)

/-- A fold of `max` is never below the value it starts from, so taking the maximum with that value once more changes
    nothing. -/
theorem max_start_peak (s : Fin 16 → EReal) : max (Ideal.ofBits .f32 0xFF800000#32) (peak s) = peak s :=
  max_eq_right ((Finset.le_fold_max _).2 (Or.inl le_rfl))

/-- The inner product does not care which factor is written first. -/
theorem score_comm (te : Fin 16 → Fin 128 → EReal) (xr : Fin 128 → EReal) (k : Fin 16) :
    ∑ d : Fin 128, te k d * xr d = score te xr k :=
  Finset.sum_congr rfl fun d _ => mul_comm _ _

end Cert.PromptMix

end
-- ==== Proof.BodyMix.lean ====
/-
  What the kernel's body stores, read at one entry of its block.

  The body works on a block of 10000 rows with the scores TRANSPOSED: tokens along the first axis, rows along the second.
  Its first product contracts the 128 columns of the token table and of the block, giving score (token, row); the
  maximum and the sum of exponentials run down the sixteen tokens of each row's column of that matrix, are laid back
  over all sixteen, and give the softmax weight (token, row); its second product contracts the sixteen tokens of the
  weights and of the token table, giving the mix at (row, column); the block is added. Changes of float format are the
  identity here. So the entry at (row p, column q) is the block's entry there plus `PromptMix.mix` of row p at q.
-/
import proofs.«424076_j52999896433002_3_alg».proof.Proof.Gen.KernelIdeal.Skeleton
import proofs.«424076_j52999896433002_3_alg».proof.Proof.PromptMix
import Idealize.ShloMosaic.Lib.Pipeline.Value
import Idealize.ShloMosaic.Lib.ValueIdx
import Idealize.ShloMosaic.PureOps.Ideal.Laws

noncomputable section

namespace Cert.KernelIdeal.BodyMix

open Cert.KernelIdeal Cert.KernelIdeal.Gen Cert.PromptMix
open Idealize.ShloMosaic Idealize.ShloMosaic.ValueIdx

/-! ## The two products' operand indices, axis by axis -/

theorem lhs_scores_0 (i : S16x10000.Idx) (q : dot_S16x128_S10000x128_S16x10000_1_1_0_0_n_n.contr.Idx) :
    (dot_S16x128_S10000x128_S16x10000_1_1_0_0_n_n.lhsIdx i q 0).val = (i 0).val := by
  unfold DotDims.lhsIdx
  rw [dif_neg (show ¬(0 : Fin S16x128.rank) ∈ dot_S16x128_S10000x128_S16x10000_1_1_0_0_n_n.lhsBatch by decide), dif_pos (show (0 : Fin S16x128.rank) ∈ dot_S16x128_S10000x128_S16x10000_1_1_0_0_n_n.lhsNonContracting by decide)]
  rfl
theorem lhs_scores_1 (i : S16x10000.Idx) (q : dot_S16x128_S10000x128_S16x10000_1_1_0_0_n_n.contr.Idx) :
    (dot_S16x128_S10000x128_S16x10000_1_1_0_0_n_n.lhsIdx i q 1).val = (q ⟨0, by decide⟩).val :=
  dot_S16x128_S10000x128_S16x10000_1_1_0_0_n_n.lhsIdx_val_of_single rfl i q
theorem rhs_scores_0 (i : S16x10000.Idx) (q : dot_S16x128_S10000x128_S16x10000_1_1_0_0_n_n.contr.Idx) :
    (dot_S16x128_S10000x128_S16x10000_1_1_0_0_n_n.rhsIdx i q 0).val = (i 1).val := by
  unfold DotDims.rhsIdx
  rw [dif_neg (show ¬(0 : Fin S10000x128.rank) ∈ dot_S16x128_S10000x128_S16x10000_1_1_0_0_n_n.rhsBatch by decide), dif_pos (show (0 : Fin S10000x128.rank) ∈ dot_S16x128_S10000x128_S16x10000_1_1_0_0_n_n.rhsNonContracting by decide)]
  rfl
theorem rhs_scores_1 (i : S16x10000.Idx) (q : dot_S16x128_S10000x128_S16x10000_1_1_0_0_n_n.contr.Idx) :
    (dot_S16x128_S10000x128_S16x10000_1_1_0_0_n_n.rhsIdx i q 1).val = (q ⟨0, by decide⟩).val :=
  dot_S16x128_S10000x128_S16x10000_1_1_0_0_n_n.rhsIdx_val_of_single rfl i q

theorem lhs_mix_0 (i : S10000x128.Idx) (q : dot_S16x10000_S16x128_S10000x128_0_0_1_1_n_n.contr.Idx) :
    (dot_S16x10000_S16x128_S10000x128_0_0_1_1_n_n.lhsIdx i q 0).val = (q ⟨0, by decide⟩).val :=
  dot_S16x10000_S16x128_S10000x128_0_0_1_1_n_n.lhsIdx_val_of_single rfl i q
theorem lhs_mix_1 (i : S10000x128.Idx) (q : dot_S16x10000_S16x128_S10000x128_0_0_1_1_n_n.contr.Idx) :
    (dot_S16x10000_S16x128_S10000x128_0_0_1_1_n_n.lhsIdx i q 1).val = (i 0).val := by
  unfold DotDims.lhsIdx
  rw [dif_neg (show ¬(1 : Fin S16x10000.rank) ∈ dot_S16x10000_S16x128_S10000x128_0_0_1_1_n_n.lhsBatch by decide), dif_pos (show (1 : Fin S16x10000.rank) ∈ dot_S16x10000_S16x128_S10000x128_0_0_1_1_n_n.lhsNonContracting by decide)]
  rfl
theorem rhs_mix_0 (i : S10000x128.Idx) (q : dot_S16x10000_S16x128_S10000x128_0_0_1_1_n_n.contr.Idx) :
    (dot_S16x10000_S16x128_S10000x128_0_0_1_1_n_n.rhsIdx i q 0).val = (q ⟨0, by decide⟩).val :=
  dot_S16x10000_S16x128_S10000x128_0_0_1_1_n_n.rhsIdx_val_of_single rfl i q
theorem rhs_mix_1 (i : S10000x128.Idx) (q : dot_S16x10000_S16x128_S10000x128_0_0_1_1_n_n.contr.Idx) :
    (dot_S16x10000_S16x128_S10000x128_0_0_1_1_n_n.rhsIdx i q 1).val = (i 1).val := by
  unfold DotDims.rhsIdx
  rw [dif_neg (show ¬(1 : Fin S16x128.rank) ∈ dot_S16x10000_S16x128_S10000x128_0_0_1_1_n_n.rhsBatch by decide), dif_pos (show (1 : Fin S16x128.rank) ∈ dot_S16x10000_S16x128_S10000x128_0_0_1_1_n_n.rhsNonContracting by decide)]
  rfl

/-! ## The two products at an entry -/

/-- The first product at (token k, row p): the inner product of row p of the block with token row k. -/
theorem scoresT_apply (x0 : FVec Ideal S10000x128 .f32) (v2 : FVec Ideal S16x128 .bf16) (k : Fin 16) (p : Fin 10000) :
    matmul dot_S16x128_S10000x128_S16x10000_1_1_0_0_n_n none (shapeCast S16x128 v2 shapeCasts_S16x128_S16x128) (truncf .bf16 x0 bitsLt_bf16_f32)
        (constant S16x10000 .f32 0x00000000#32) (ix2 k p)
      = score (fun k d => v2 (ix2 k d)) (fun d => x0 (ix2 p d)) k := by
  rw [shapeCast_self]
  simp only [matmul]
  rw [Ideal.matmul_constant_zero_apply, ← Equiv.sum_comp (contrEquiv1 dot_S16x128_S10000x128_S16x10000_1_1_0_0_n_n 128 rfl rfl).symm, ← score_comm]
  refine Finset.sum_congr rfl fun d _ => ?_
  have hk := contrEquiv1_symm_val dot_S16x128_S10000x128_S16x10000_1_1_0_0_n_n 128 rfl rfl d
  have el : dot_S16x128_S10000x128_S16x10000_1_1_0_0_n_n.lhsIdx (ix2 k p) ((contrEquiv1 dot_S16x128_S10000x128_S16x10000_1_1_0_0_n_n 128 rfl rfl).symm d) = ix2 k d := funext fun a => Fin.ext (by
    match a with
    | ⟨0, _⟩ => exact lhs_scores_0 _ _
    | ⟨1, _⟩ => exact (lhs_scores_1 _ _).trans hk)
  have er : dot_S16x128_S10000x128_S16x10000_1_1_0_0_n_n.rhsIdx (ix2 k p) ((contrEquiv1 dot_S16x128_S10000x128_S16x10000_1_1_0_0_n_n 128 rfl rfl).symm d) = ix2 p d := funext fun a => Fin.ext (by
    match a with
    | ⟨0, _⟩ => exact rhs_scores_0 _ _
    | ⟨1, _⟩ => exact (rhs_scores_1 _ _).trans hk)
  rw [el, er]
  rfl

/-- The second product at (row p, column q): the weights of row p against column q of the token table. -/
theorem mixT_apply (w : FVec Ideal S16x10000 .bf16) (v2 : FVec Ideal S16x128 .bf16) (p : Fin 10000) (q : Fin 128) :
    matmul dot_S16x10000_S16x128_S10000x128_0_0_1_1_n_n none w (shapeCast S16x128 v2 shapeCasts_S16x128_S16x128) (constant S10000x128 .f32 0x00000000#32) (ix2 p q)
      = ∑ k : Fin 16, w (ix2 k p) * v2 (ix2 k q) := by
  rw [shapeCast_self]
  simp only [matmul]
  rw [Ideal.matmul_constant_zero_apply, ← Equiv.sum_comp (contrEquiv1 dot_S16x10000_S16x128_S10000x128_0_0_1_1_n_n 16 rfl rfl).symm]
  refine Finset.sum_congr rfl fun k _ => ?_
  have hk := contrEquiv1_symm_val dot_S16x10000_S16x128_S10000x128_0_0_1_1_n_n 16 rfl rfl k
  have el : dot_S16x10000_S16x128_S10000x128_0_0_1_1_n_n.lhsIdx (ix2 p q) ((contrEquiv1 dot_S16x10000_S16x128_S10000x128_0_0_1_1_n_n 16 rfl rfl).symm k) = ix2 k p := funext fun a => Fin.ext (by
    match a with
    | ⟨0, _⟩ => exact (lhs_mix_0 _ _).trans hk
    | ⟨1, _⟩ => exact lhs_mix_1 _ _)
  have er : dot_S16x10000_S16x128_S10000x128_0_0_1_1_n_n.rhsIdx (ix2 p q) ((contrEquiv1 dot_S16x10000_S16x128_S10000x128_0_0_1_1_n_n 16 rfl rfl).symm k) = ix2 k q := funext fun a => Fin.ext (by
    match a with
    | ⟨0, _⟩ => exact (rhs_mix_0 _ _).trans hk
    | ⟨1, _⟩ => exact rhs_mix_1 _ _)
  rw [el, er]

/-! ## Down the sixteen tokens of a row's column, and back over them -/

/-- Row p's column of a (token, row) matrix with token k put back is the entry (k, p). -/
theorem lift_col (p : Fin 10000) (k : Fin (S16x10000.size 0)) :
    reduces_S16x10000_S10000.lift (ix1 p) k = ix2 (⟨k.val, k.isLt⟩ : Fin 16) p := by
  funext c; apply Fin.ext
  fin_cases c <;> rfl

/-- The maximum down the tokens, at row p: the peak of that row's sixteen entries. -/
theorem colMax_apply (s4 : FVec Ideal S16x10000 .f32) (p : Fin 10000) :
    multiReduction .maximumf [0] S10000 s4 0xFF800000#32 reduces_S16x10000_S10000 (.inl rfl) rfl (ix1 p)
      = peak (fun k => s4 (ix2 k p)) := by
  refine (Ideal.multiReduction_maximumf_single s4 0xFF800000#32 reduces_S16x10000_S10000 (.inl rfl) rfl (ix1 p)).trans ?_
  unfold peak
  show (Finset.univ : Finset (Fin 16)).fold max (Ideal.ofBits .f32 0xFF800000#32)
      (fun k : Fin 16 => s4 (reduces_S16x10000_S10000.lift (ix1 p) k)) = _
  exact congrArg (fun f => (Finset.univ : Finset (Fin 16)).fold max (Ideal.ofBits .f32 0xFF800000#32) f)
    (funext fun k => congrArg s4 (lift_col p k))

/-- The sum down the tokens, at row p. -/
theorem colSum_apply (e : FVec Ideal S16x10000 .f32) (p : Fin 10000) :
    multiReduction .add [0] S10000 e 0x00000000#32 reduces_S16x10000_S10000 (.inl rfl) rfl (ix1 p)
      = ∑ k : Fin 16, e (ix2 k p) := by
  refine (Ideal.multiReduction_add_single e 0x00000000#32 reduces_S16x10000_S10000 (.inl rfl) rfl (ix1 p)).trans ?_
  show ∑ k : Fin 16, e (reduces_S16x10000_S10000.lift (ix1 p) k) = _
  exact Finset.sum_congr rfl fun k _ => congrArg e (lift_col p k)

/-- A per-row value laid over all sixteen tokens reads, at (k, p), the value of row p. -/
theorem spread_apply (z : FVec Ideal S10000 .f32) (k : Fin 16) (p : Fin 10000) :
    broadcastTo S16x10000 (shapeCast S1x10000 z shapeCasts_S10000_S1x10000) broadcasts_S1x10000_S16x10000 (ix2 k p)
      = z (ix1 p) := by
  refine (broadcastTo_apply _ broadcasts_S1x10000_S16x10000 (ix2 k p) (ix2 (0 : Fin 1) p) (fun a => ?_)).trans ?_
  · match a with
    | ⟨0, _⟩ => show (0 : Nat) = if (1 : Nat) = 1 then 0 else _; rw [if_pos rfl]
    | ⟨1, _⟩ => show p.val = if (10000 : Nat) = 1 then 0 else p.val; rw [if_neg (by decide)]
  · exact (shapeCast_addUnit_apply ![10000] z shapeCasts_S10000_S1x10000 (ix2 (0 : Fin 1) p)).trans
      (congrArg z (funext fun a => by fin_cases a; rfl))

/-! ## The softmax over the transposed scores -/

/-- The exponentials of a (token, row) matrix below each row's peak. -/
def expoT (s4 : FVec Ideal S16x10000 .f32) : FVec Ideal S16x10000 .f32 :=
  exp (subf s4 (broadcastTo S16x10000 (shapeCast S1x10000
    (multiReduction .maximumf [0] S10000 s4 0xFF800000#32 reduces_S16x10000_S10000 (.inl rfl) rfl)
    shapeCasts_S10000_S1x10000) broadcasts_S1x10000_S16x10000))

/-- Those over their sum down the tokens. -/
def weightsT (s4 : FVec Ideal S16x10000 .f32) : FVec Ideal S16x10000 .f32 :=
  divf (expoT s4) (broadcastTo S16x10000 (shapeCast S1x10000
    (multiReduction .add [0] S10000 (expoT s4) 0x00000000#32 reduces_S16x10000_S10000 (.inl rfl) rfl)
    shapeCasts_S10000_S1x10000) broadcasts_S1x10000_S16x10000)

theorem expoT_apply (s4 : FVec Ideal S16x10000 .f32) (k : Fin 16) (p : Fin 10000) :
    expoT s4 (ix2 k p) = Ideal.exp (s4 (ix2 k p) - peak (fun k' => s4 (ix2 k' p))) := by
  unfold expoT
  show Ideal.exp (s4 (ix2 k p) - broadcastTo S16x10000 (shapeCast S1x10000
    (multiReduction .maximumf [0] S10000 s4 0xFF800000#32 reduces_S16x10000_S10000 (.inl rfl) rfl)
    shapeCasts_S10000_S1x10000) broadcasts_S1x10000_S16x10000 (ix2 k p)) = _
  rw [spread_apply, colMax_apply]

/-- At (token k, row p) the weight is the softmax weight of token k among row p's sixteen entries. -/
theorem weightsT_apply (s4 : FVec Ideal S16x10000 .f32) (k : Fin 16) (p : Fin 10000) :
    weightsT s4 (ix2 k p) = weight (fun k' => s4 (ix2 k' p)) k := by
  unfold weightsT weight
  show Ideal.div (expoT s4 (ix2 k p)) (broadcastTo S16x10000 (shapeCast S1x10000
    (multiReduction .add [0] S10000 (expoT s4) 0x00000000#32 reduces_S16x10000_S10000 (.inl rfl) rfl)
    shapeCasts_S10000_S1x10000) broadcasts_S1x10000_S16x10000 (ix2 k p)) = _
  rw [spread_apply, colSum_apply, expoT_apply]
  exact congrArg (Ideal.div _) (Finset.sum_congr rfl fun k' _ => expoT_apply s4 k' p)

/-! ## The stored value -/

/-- The body's stored value, its steps grouped: the block plus the second product of the softmax of the first. -/
theorem payload_shape (x0 : FVec Ideal S10000x128 .f32) (v2 : FVec Ideal S16x128 .bf16) (x16 : FVec Ideal S10000x128 .f32) :
    k0_pay1 (F := Ideal) x0 v2 x16
      = addf x16 (matmul dot_S16x10000_S16x128_S10000x128_0_0_1_1_n_n none
          (truncf .bf16 (weightsT (matmul dot_S16x128_S10000x128_S16x10000_1_1_0_0_n_n none (shapeCast S16x128 v2 shapeCasts_S16x128_S16x128)
            (truncf .bf16 x0 bitsLt_bf16_f32) (constant S16x10000 .f32 0x00000000#32))) bitsLt_bf16_f32)
          (shapeCast S16x128 v2 shapeCasts_S16x128_S16x128) (constant S10000x128 .f32 0x00000000#32)) := rfl

/-- THE STORED VALUE at (row p, column q): the second load's entry there plus the mix that row p of the first load
    draws from the token block. -/
theorem payload_apply (x0 : FVec Ideal S10000x128 .f32) (v2 : FVec Ideal S16x128 .bf16) (x16 : FVec Ideal S10000x128 .f32)
    (p : Fin 10000) (q : Fin 128) :
    k0_pay1 (F := Ideal) x0 v2 x16 (ix2 p q)
      = x16 (ix2 p q) + mix (fun k d => v2 (ix2 k d)) (fun d => x0 (ix2 p d)) q := by
  rw [payload_shape, addf_apply, mixT_apply]
  unfold mix
  refine congrArg (x16 (ix2 p q) + ·) (Finset.sum_congr rfl fun k _ => ?_)
  rw [truncf_apply, weightsT_apply]
  exact congrArg (fun s => weight s k * v2 (ix2 k q)) (funext fun k' => scoresT_apply x0 v2 k' p)

end Cert.KernelIdeal.BodyMix

end
-- ==== Proof.WholeMix.lean ====
/-
  From the body's blocks to the whole result array.

  Grid point t works on rows 10000·t … 10000·t + 9999: its input block of `x` and its output block sit at the same
  rows, all 128 columns, and the token block is the whole (format-changed, so at these values unchanged) token table.
  By the body's stored value, what point t writes back is therefore block t of `PromptMix.mixed` of the two argument
  arrays; the forty blocks tile the 400000 rows, so the result array ends holding `mixed`.
-/
import proofs.«424076_j52999896433002_3_alg».proof.Proof.Gen.KernelIdeal.Value
import proofs.«424076_j52999896433002_3_alg».proof.Proof.BodyMix
import Idealize.ShloMosaic.Lib.StableHlo.Run

set_option maxRecDepth 16384

noncomputable section

namespace Cert.KernelIdeal.WholeMix

open Cert.KernelIdeal Cert.KernelIdeal.Gen Cert.KernelIdeal.BodyMix Cert.PromptMix
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

theorem noOffset : (![0, 0] : Fin 2 → Nat) = fun _ => 0 := funext fun a => by fin_cases a <;> rfl

/-- The printed index maps, decided over the forty points: the input block of `x` sits where the output block does, in
    the only block column; the token block is the one block there is; the block row stays below forty. -/
theorem blockIndices : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 39 :=
  (by decide +kernel : ∀ t : Fin grid0.N, _)

/-- Every block row is some point's. -/
theorem blockRows : ∀ b : Fin 40, ∃ t : Fin cfg0.N, win0_2.index t = ![b.val, 0] :=
  (by decide +kernel : ∀ b : Fin 40, ∃ t : Fin grid0.N, win0_2.index t = ![b.val, 0])

/-- The token table as the region finds it: the argument with its format changed, which at these values is the argument. -/
theorem tokens_found (c : Dev nD) :
    (V m c main_v0 : S16x128.Idx → EReal) = fun i => m ((c : Thread nD τ).loc main_arg1) i := by
  have e : (V m c main_v0 : S16x128.Idx → EReal)
      = truncf (F := Ideal) .bf16 (m ((c : Thread nD τ).loc main_arg1)) bitsLt_bf16_f32 := by
    dsimp only [Gen.V, Gen.hostOps0]; after_results
  rw [e]; rfl

/-- Entry (k, d) of the token block at any point is entry (k, d) of the token argument. -/
theorem tokenBlock_apply (c : Dev nD) (t : Fin cfg0.N) (k : Fin 16) (d : Fin 128) :
    iblk m c 1 t (ix2 k d) = m ((c : Thread nD τ).loc main_arg1) (ix2 k d) := by
  obtain ⟨-, -, -, e3, e4, -⟩ := blockIndices t
  show V m c main_v0 (((cfg0.win 1).blk t).view.emb (ix2 k d)) = _
  refine (congrFun (tokens_found m c) _).trans ?_
  refine congrArg (m ((c : Thread nD τ).loc main_arg1)) (funext fun a => Fin.ext ?_)
  match a with
  | ⟨0, _⟩ => show win0_1.index t (0 : Fin 2) * 16 + 1 * k.val = k.val; omega
  | ⟨1, _⟩ => show win0_1.index t (1 : Fin 2) * 128 + 1 * d.val = d.val; omega

/-- Entry (p, d) of point t's block of `x` is entry d of the row of `x` that the OUTPUT block's row p is. -/
theorem rowBlock_apply (c : Dev nD) (t : Fin cfg0.N) (p : Fin 10000) (d q : Fin 128) :
    iblk m c 0 t (ix2 p d)
      = m ((c : Thread nD τ).loc main_arg0) (ix2 ((((cfg0.win 2).blk t).view.emb (ix2 p q)) 0) d) := by
  obtain ⟨e0, e1, e2, -, -, -⟩ := blockIndices t
  show V m c main_arg0 (((cfg0.win 0).blk t).view.emb (ix2 p d)) = _
  rw [V_main_arg0]
  refine congrArg (m ((c : Thread nD τ).loc main_arg0)) (funext fun a => Fin.ext ?_)
  match a with
  | ⟨0, _⟩ => show win0_0.index t (0 : Fin 2) * 10000 + 1 * p.val = win0_2.index t (0 : Fin 2) * 10000 + 1 * p.val; omega
  | ⟨1, _⟩ => show win0_0.index t (1 : Fin 2) * 128 + 1 * d.val = d.val; omega

/-- Column q of the output block is column q of the array. -/
theorem outColumn (t : Fin cfg0.N) (p : Fin 10000) (q : Fin 128) :
    (((cfg0.win 2).blk t).view.emb (ix2 p q)) 1 = q := by
  obtain ⟨-, -, e2, -, -, -⟩ := blockIndices t
  apply Fin.ext
  show win0_2.index t (1 : Fin 2) * 128 + 1 * q.val = q.val
  omega

/-- WHAT POINT t WRITES BACK is block t of `mixed` of the argument arrays. -/
theorem flushed_eq (c : Dev nD) (t : Fin cfg0.N) :
    (dats m 0 c).flushed 2 t
      = ((cfg0.win 2).blk t).view.read (Elt Ideal) (mixed (m ((c : Thread nD τ).loc main_arg0)) (m ((c : Thread nD τ).loc main_arg1))) := by
  rw [Value.flushed2]
  unfold out0_2
  rw [View.canon_unit_zero noOffset]
  simp only [View.ld_unit_zero (S := S10000x128) noOffset, View.ld_unit_zero (S := S16x128) noOffset]
  funext j
  obtain ⟨p, q, rfl⟩ : ∃ (p : Fin 10000) (q : Fin 128), j = ix2 p q := ⟨j 0, j 1, eq_ix2 j⟩
  show k0_pay1 (F := Ideal) (iblk m c 0 t) (iblk m c 1 t) (iblk m c 0 t) (ix2 p q)
    = mixed (m ((c : Thread nD τ).loc main_arg0)) (m ((c : Thread nD τ).loc main_arg1)) (((cfg0.win 2).blk t).view.emb (ix2 p q))
  refine (payload_apply (iblk m c 0 t) (iblk m c 1 t) (iblk m c 0 t) p q).trans ?_
  unfold mixed
  have hx : iblk m c 0 t (ix2 p q)
      = m ((c : Thread nD τ).loc main_arg0) (((cfg0.win 2).blk t).view.emb (ix2 p q)) := by
    refine (rowBlock_apply m c t p q q).trans (congrArg (m ((c : Thread nD τ).loc main_arg0)) ?_)
    refine (congrArg (ix2 _) (outColumn t p q).symm).trans (eq_ix2 _).symm
  have hrow : (fun d => iblk m c 0 t (ix2 p d))
      = fun d => m ((c : Thread nD τ).loc main_arg0) (ix2 ((((cfg0.win 2).blk t).view.emb (ix2 p q)) 0) d) :=
    funext fun d => rowBlock_apply m c t p d q
  have htok : (fun k d => iblk m c 1 t (ix2 k d)) = fun k d => m ((c : Thread nD τ).loc main_arg1) (ix2 k d) :=
    funext fun k => funext fun d => tokenBlock_apply m c t k d
  rw [hx, hrow, htok, outColumn t p q]

/-- An index of the array is in point t's block iff each coordinate is in the block's range on its axis. -/
theorem mem_block (t : Fin cfg0.N) (i : S400000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v1).slice (win0_2.rect t)).set ↔ _
  rw [View.set_slice_whole, Rect.mem_set_unit]
  exact Iff.rfl

/-- Every index of the array is in some point's block: row r is in block row r / 10000. -/
theorem covered (i : S400000x128.Idx) :
    ∃ t : Fin cfg0.N, (cfg0.win 2).flush t = true ∧ i ∈ ((cfg0.win 2).blk t).view.set := by
  have hi0 : (i 0).val < 400000 := (i 0).isLt
  have hi1 : (i 1).val < 128 := (i 1).isLt
  obtain ⟨t, ht⟩ := blockRows ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE RESULT ARRAY after the run is `mixed` of the argument arrays. -/
theorem final (c : Dev nD) :
    (dats m 0 c).arrAt 2 cfg0.N = mixed (m ((c : Thread nD τ).loc main_arg0)) (m ((c : Thread nD τ).loc main_arg1)) :=
  (dats m 0 c).arrAt_eq_of_cover 2 _ (fun t _ => flushed_eq m c t) covered

/-- The kernel's run, read: the result array at `mixed` of the arguments, the arguments unchanged. -/
theorem run : θ_run defs (onTc (τ := τ) (main (F := Ideal))) ⟨m, fun _ => 0, ρ⟩ fun r => ∀ c : Dev nD,
      r.2.mem ((c : Thread nD τ).loc main_v1) = mixed (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeMix

end
-- ==== Proof.ReferenceMix.lean ====
/-
  The reference, read stage by stage, is `PromptMix.mixed`.

  Its first product scores every row of `x` against every token row (the token table transposed first, so the
  contraction runs over the 128 columns of both); the row maximum is a fold of `max` from -∞, met once more with -∞,
  which changes nothing; the exponentials of the scores below that maximum are summed along the sixteen tokens from zero;
  their quotient is the softmax weight; the second product mixes the token rows by those weights; and `x` is added.
-/
import proofs.«424076_j52999896433002_3_alg».proof.Proof.Gen.ReferenceIdeal.Read
import proofs.«424076_j52999896433002_3_alg».proof.Proof.PromptMix

noncomputable section

namespace Cert.ReferenceIdeal.RefMix

open Cert.ReferenceIdeal Cert.ReferenceIdeal.Gen Cert.ReferenceIdeal.Read Cert.PromptMix
open Idealize.ShloMosaic Idealize.ShloMosaic.ValueIdx

variable (x : S400000x128.Idx → EReal) (te : S16x128.Idx → EReal)

/-- The score matrix may be reduced along its token axis. -/
theorem alongTokens : S400000x16.Reduces [1] S400000 := by decide

/-- Stage 1 at (row, token): the inner product of that row of `x` with that token row. -/
theorem scores_eq (j : S400000x16.Idx) :
    val_main_v1 (F := Ideal) x te j = score (fun k d => te (ix2 k d)) (fun d => x (ix2 (j 0) d)) (j 1) := by
  rw [val_main_v1_apply]
  unfold score
  refine Finset.sum_congr rfl fun d _ => ?_
  rw [val_main_v0_apply]
  have e1 : lidx_main_v1 j d = ix2 (j 0) d := funext fun a => by
    match a with
    | ⟨0, _⟩ => rfl
    | ⟨1, _⟩ => rfl
  have e2 : idx_main_v0 (ridx_main_v1 j d) = ix2 (j 1) d := funext fun a => by
    match a with
    | ⟨0, _⟩ => rfl
    | ⟨1, _⟩ => rfl
  rw [e1, e2]
  rfl

/-- The reduce with a `max` body, at a row: the peak of that row's sixteen scores. -/
theorem rowMax_eq (i : S400000.Idx) :
    val_main_v2 (F := Ideal) x te i = peak (score (fun k d => te (ix2 k d)) (fun d => x (ix2 (i 0) d))) := by
  unfold val_main_v2
  rw [Host.reduce_eq_fold_single FloatOps.maximumf _ _ reducesTo_S400000x16_S400000_d1 alongTokens h_S_ i]
  unfold peak
  show (Finset.univ : Finset (Fin 16)).fold max (Ideal.ofBits .f32 0xFF800000#32)
      (fun k : Fin 16 => val_main_v1 (F := Ideal) x te (alongTokens.lift i k)) = _
  refine congrArg (fun f => (Finset.univ : Finset (Fin 16)).fold max (Ideal.ofBits .f32 0xFF800000#32) f) (funext fun k => ?_)
  rw [scores_eq]
  have e0 : alongTokens.lift i k 0 = i 0 := Fin.ext rfl
  have e1 : alongTokens.lift i k 1 = k := Fin.ext rfl
  rw [e0, e1]

/-- Stage 4, the maximum met with -∞ once more: still the peak. -/
theorem peak_eq (i : S400000.Idx) :
    val_main_v4 (F := Ideal) x te i = peak (score (fun k d => te (ix2 k d)) (fun d => x (ix2 (i 0) d))) := by
  rw [val_main_v4_apply, val_main_v3_apply, val_main_cst_0_apply, rowMax_eq]
  exact max_start_peak _

/-- Stage 8 at (row, token): the exponential of the score below the row's peak. -/
theorem expo_eq (j : S400000x16.Idx) :
    val_main_v8 (F := Ideal) x te j
      = Ideal.exp (score (fun k d => te (ix2 k d)) (fun d => x (ix2 (j 0) d)) (j 1)
          - peak (score (fun k d => te (ix2 k d)) (fun d => x (ix2 (j 0) d)))) := by
  rw [val_main_v8_apply, val_main_v7_apply, val_main_v6_apply, val_main_v5_apply, scores_eq, peak_eq]
  rfl

/-- Stage 9 at a row: the sum of the sixteen exponentials (from zero). -/
theorem norm_eq (i : S400000.Idx) :
    val_main_v9 (F := Ideal) x te i
      = ∑ k : Fin 16, Ideal.exp (score (fun k d => te (ix2 k d)) (fun d => x (ix2 (i 0) d)) k
          - peak (score (fun k d => te (ix2 k d)) (fun d => x (ix2 (i 0) d)))) := by
  rw [val_main_v9_apply, val_main_cst_1_apply]
  show Ideal.ofBits .f32 0x00000000#32 + _ = _
  rw [Ideal.ofBits_zero_f32, zero_add]
  refine Finset.sum_congr rfl fun k _ => ?_
  rw [expo_eq]
  rfl

/-- Stage 12 at (row, token): the softmax weight. -/
theorem weights_eq (j : S400000x16.Idx) :
    val_main_v12 (F := Ideal) x te j = weight (score (fun k d => te (ix2 k d)) (fun d => x (ix2 (j 0) d))) (j 1) := by
  rw [val_main_v12_apply, val_main_v11_apply, val_main_v10_apply, expo_eq, norm_eq]
  rfl

/-- The reference's result is `mixed`. -/
theorem result_eq : val_main_v14 (F := Ideal) x te = mixed x te := by
  funext i
  rw [val_main_v14_apply, val_main_v13_apply]
  unfold mixed mix
  refine congrArg (x i + ·) (Finset.sum_congr rfl fun k _ => ?_)
  rw [weights_eq]
  have er : ridx_main_v13 i k = ix2 k (i 1) := funext fun a => by
    match a with
    | ⟨0, _⟩ => rfl
    | ⟨1, _⟩ => rfl
  rw [er]
  rfl

end Cert.ReferenceIdeal.RefMix

end
-- ==== Proof.lean ====
/-
  The certificate: a softmax-weighted mix of sixteen token rows added to each of 400000 rows, computed by a kernel over
  blocks of 10000 rows with the scores transposed and by a plain two-product reference, are one function over the
  extended reals.

  For a row `xr` of `x` and the token table `te`: the scores `s k = ∑ d, xr d * te k d`, their peak `M` (a fold of
  `max` from -∞), the weights `exp (s k - M) / ∑ k', exp (s k' - M)`, and the result `xr d + ∑ k, weight k * te k d`
  (`PromptMix`). The reference computes exactly this, stage by stage (`ReferenceMix`): the only differences from the
  kernel are the order of the two factors inside the first product (multiplication commutes), one more maximum with -∞
  after the fold that already started from it (absorbed), and the axis the sixteen tokens lie along. The kernel's body
  stores it entry by entry of its block (`BodyMix`), and its forty blocks tile the array (`WholeMix`). Changes of float
  format are the identity at these values, no law used needs the inputs finite, and the ideal pass rewrote nothing, so
  the idealized kernel is the kernel's own text.
-/
import proofs.«424076_j52999896433002_3_alg».proof.Defs
import proofs.«424076_j52999896433002_3_alg».proof.Proof.Gen.Kernel
import proofs.«424076_j52999896433002_3_alg».proof.Proof.Gen.Kernel.Skeleton
import proofs.«424076_j52999896433002_3_alg».proof.Proof.Gen.Kernel.Launch
import proofs.«424076_j52999896433002_3_alg».proof.Proof.Gen.Kernel.Points
import proofs.«424076_j52999896433002_3_alg».proof.Proof.Gen.Kernel.Frame
import proofs.«424076_j52999896433002_3_alg».proof.Proof.Gen.KernelIdeal
import proofs.«424076_j52999896433002_3_alg».proof.Proof.Gen.KernelIdeal.Skeleton
import proofs.«424076_j52999896433002_3_alg».proof.Proof.Gen.KernelIdeal.Launch
import proofs.«424076_j52999896433002_3_alg».proof.Proof.Gen.KernelIdeal.Points
import proofs.«424076_j52999896433002_3_alg».proof.Proof.Gen.KernelIdeal.Frame
import proofs.«424076_j52999896433002_3_alg».proof.Proof.Gen.ReferenceIdeal
import proofs.«424076_j52999896433002_3_alg».proof.Proof.Gen.Pre_finite_inputs
import proofs.«424076_j52999896433002_3_alg».proof.Proof.Gen.KernelIdeal.Value
import proofs.«424076_j52999896433002_3_alg».proof.Proof.Gen.ReferenceIdeal.Run
import proofs.«424076_j52999896433002_3_alg».proof.Proof.Gen.ReferenceIdeal.Read
import proofs.«424076_j52999896433002_3_alg».proof.Proof.WholeMix
import proofs.«424076_j52999896433002_3_alg».proof.Proof.ReferenceMix
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to restate. -/
theorem preserves : Cert.preserves_Kernel_KernelIdeal := trivial

/-- From memories agreeing on `x` and the token table, the kernel's result array and the reference's both end at
    `PromptMix.mixed` of them. -/
theorem algebraic : Cert.algebraic_KernelIdeal_ReferenceIdeal := by
  intro m ρ m' ρ' _ hagree
  refine ⟨_, Cert.KernelIdeal.WholeMix.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq (F := Ideal) _ _).trans ?_
  rw [Cert.ReferenceIdeal.RefMix.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
